-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4x8192x1024 : Shape := ⟨3, ![4, 8192, 1024]⟩
abbrev S1024 : Shape := ⟨1, ![1024]⟩
abbrev S32768x1024 : Shape := ⟨2, ![32768, 1024]⟩
abbrev S2048x1024 : Shape := ⟨2, ![2048, 1024]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S32768x1024, .f32⟩
  | .hbm, ⟨3, _⟩ => ⟨S32768x1024, .f32⟩
  | .hbm, ⟨4, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024, .f32⟩
  | .local _ .vmem, ⟨3, _⟩ => ⟨S2048x1024, .f32⟩
  | .local _ .vmem, ⟨4, _⟩ => ⟨S2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192x1024_S32768x1024 : S4x8192x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S1x1x1024 : Shape := ⟨3, ![1, 1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1x1x1024, .f32⟩
  | .hbm, ⟨3, _⟩ => ⟨S4x8192x1024, .f32⟩
  | .hbm, ⟨4, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.Body.lean ====
/-
  The kernel body at one position of a block.  The body multiplies a block of 2048 rows by 1024 channels,
  entry by entry, by a vector of 1024 per-channel factors: the block passes through a shape cast to its own
  shape (the identity), the vector is viewed as one row [1, 1024] and repeated down the 2048 rows, and the two
  are multiplied.  So the value stored at row r, channel d is the block's entry (r, d) times the vector's
  entry d.  Nothing here depends on how floats are read: the statement holds for every float instance.
-/
import proofs.«145180_j25125558681902_1_alg».proof.Proof.Gen.KernelIdeal.Skeleton
import Idealize.ShloMosaic.Lib.Pipeline.Value
import Idealize.ShloMosaic.Lib.ValueIdx

noncomputable section

namespace Cert.KernelIdeal.Scaled

open Idealize.ShloMosaic Idealize.ShloMosaic.ValueIdx Cert.KernelIdeal Cert.KernelIdeal.Gen

variable {F : FTy → Type} [FloatOps F]

/-- A vector of 1024 entries viewed as the single row [1, 1024] and repeated down 2048 rows reads, at row r and
    channel d, its entry d: the repeated axis is the unit one, and position (0, d) of the row is position d of
    the vector in row-major order. -/
theorem repeated_row_apply (g : Vec F S1024 .f32) (r : Fin 2048) (d : Fin 1024) :
    broadcastTo S2048x1024 (shapeCast S1x1024 g shapeCasts_S1024_S1x1024) broadcasts_S1x1024_S2048x1024 (ix2 r d)
      = g (ix1 d) := by
  refine (broadcastTo_apply _ broadcasts_S1x1024_S2048x1024 (ix2 r d) (ix2 (⟨0, Nat.one_pos⟩ : Fin 1) d)
    (fun a => ?_)).trans ?_
  · match a with
    | ⟨0, _⟩ => show 0 = if (1 : Nat) = 1 then 0 else r.val; rw [if_pos rfl]
    | ⟨1, _⟩ => show d.val = if (1024 : Nat) = 1 then 0 else d.val; rw [if_neg (by decide)]
  · exact shapeCast_apply g shapeCasts_S1024_S1x1024 _ (ix1 d) (by
      rw [Shape.rowMajor_val_one, Shape.rowMajor_val_two]; show d.val = 0 * 1024 + d.val; omega)

/-- The value the body stores at row r, channel d of its block: the block's entry there times the factor of
    channel d. -/
theorem stored_apply (x : Vec F S2048x1024 .f32) (g : Vec F S1024 .f32) (r : Fin 2048) (d : Fin 1024) :
    k0_pay1 x g (ix2 r d) = FloatOps.mulf (x (ix2 r d)) (g (ix1 d)) := by
  unfold k0_pay1
  exact congr (congrArg FloatOps.mulf (congrFun (shapeCast_self x shapeCasts_S2048x1024_S2048x1024) (ix2 r d)))
    (repeated_row_apply g r d)

end Cert.KernelIdeal.Scaled

end
-- ==== Proof.Spec.lean ====
/-
  What both programs compute, as one function of the two argument arrays.  The input is a cube of
  4 x 8192 x 1024 numbers and a vector of 1024 per-channel factors; the result at (b, s, d) is the input at
  (b, s, d) times factor d.  The kernel works on the cube flattened to 32768 rows of 1024 channels (row
  b * 8192 + s), so the same scaling is also stated for the flattened array, together with the fact that
  flattening, scaling the rows and unflattening is the scaling of the cube: a reshape keeps row-major
  positions, and position ((b * 8192 + s) * 1024 + d) is the same on both sides.  No property of the
  multiplication is used, so everything is stated for an arbitrary reading of floats.
-/
import Idealize.ShloMosaic.PureOps
import Idealize.ShloMosaic.Lib.Pipeline.Value
import Idealize.ShloMosaic.Lib.ValueIdx

noncomputable section

namespace Cert.Scaled

open Idealize.ShloMosaic Idealize.ShloMosaic.ValueIdx

variable {F : FTy → Type} [FloatOps F]

/-- The input's shape, the flattened shape, and the factors' shape. -/
abbrev Cube : Shape := ⟨3, ![4, 8192, 1024]⟩
abbrev Rows : Shape := ⟨2, ![32768, 1024]⟩
abbrev Chan : Shape := ⟨1, ![1024]⟩

/-- Every row of the flattened array multiplied, channel by channel, by the factors. -/
def scaleRows (x : Vec F Rows .f32) (g : Vec F Chan .f32) : Vec F Rows .f32 :=
  fun i => FloatOps.mulf (x i) (g (ix1 ⟨(i 1).val, (i 1).isLt⟩))

/-- Every entry of the cube multiplied by the factor of its channel (its last coordinate). -/
def scaleCube (x : Vec F Cube .f32) (g : Vec F Chan .f32) : Vec F Cube .f32 :=
  fun i => FloatOps.mulf (x i) (g (ix1 ⟨(i 2).val, (i 2).isLt⟩))

/-- Row b * 8192 + s of the flattened array is row (b, s) of the cube. -/
theorem flat_row_lt (b : Fin 4) (s : Fin 8192) : b.val * 8192 + s.val < 32768 := by omega

/-- The flattened cube at row b * 8192 + s, channel d is the cube at (b, s, d). -/
theorem flatten_apply (x : Vec F Cube .f32) (h : Cube.ShapeCasts Rows) (b : Fin 4) (s : Fin 8192) (d : Fin 1024) :
    shapeCast Rows x h (ix2 ⟨b.val * 8192 + s.val, flat_row_lt b s⟩ d) = x (ix3 b s d) :=
  shapeCast_apply x h _ (ix3 b s d) (by
    rw [Shape.rowMajor_val_two, Shape.rowMajor_val_three]
    show (b.val * 8192 + s.val) * 1024 + d.val = (b.val * 8192 + s.val) * 1024 + d.val
    rfl)

/-- A flattened array read back as a cube at (b, s, d) is its row b * 8192 + s at channel d. -/
theorem unflatten_apply (y : Vec F Rows .f32) (h : Rows.ShapeCasts Cube) (b : Fin 4) (s : Fin 8192) (d : Fin 1024) :
    shapeCast Cube y h (ix3 b s d) = y (ix2 ⟨b.val * 8192 + s.val, flat_row_lt b s⟩ d) :=
  shapeCast_apply y h _ (ix2 ⟨b.val * 8192 + s.val, flat_row_lt b s⟩ d) (by
    rw [Shape.rowMajor_val_two, Shape.rowMajor_val_three]
    show (b.val * 8192 + s.val) * 1024 + d.val = (b.val * 8192 + s.val) * 1024 + d.val
    rfl)

/-- Flatten, scale the rows, unflatten: the scaling of the cube. -/
theorem unflatten_scaleRows_flatten (x : Vec F Cube .f32) (g : Vec F Chan .f32)
    (h : Cube.ShapeCasts Rows) (h' : Rows.ShapeCasts Cube) :
    shapeCast Cube (scaleRows (shapeCast Rows x h) g) h' = scaleCube x g := by
  funext i
  obtain ⟨b, s, d, rfl⟩ : ∃ (b : Fin 4) (s : Fin 8192) (d : Fin 1024), i = ix3 b s d := ⟨i 0, i 1, i 2, eq_ix3 i⟩
  refine (unflatten_apply _ h' b s d).trans ?_
  show FloatOps.mulf (shapeCast Rows x h (ix2 ⟨b.val * 8192 + s.val, flat_row_lt b s⟩ d)) (g (ix1 d))
    = FloatOps.mulf (x (ix3 b s d)) (g (ix1 d))
  rw [flatten_apply x h b s d]

end Cert.Scaled

end
-- ==== Proof.Blocks.lean ====
/-
  From blocks to the array.  The region runs over 16 points; point t reads rows 2048 t … 2048 t + 2047 of the
  flattened input (all 1024 channels), the whole vector of factors, and writes back the same rows of the output.
  What point t writes back is therefore rows 2048 t … of ONE function of the whole arrays, the row scaling of
  the flattened input; the 16 blocks tile the 32768 rows (row r lies in the block of point r / 2048), so after
  the region the output array is that function.
-/
import proofs.«145180_j25125558681902_1_alg».proof.Proof.Gen.KernelIdeal.Frame
import proofs.«145180_j25125558681902_1_alg».proof.Proof.Body
import proofs.«145180_j25125558681902_1_alg».proof.Proof.Spec

set_option maxRecDepth 16384

noncomputable section

namespace Cert.KernelIdeal.Scaled

open Idealize.ShloMosaic Idealize.ShloMosaic.TcCoe Idealize.ShloMosaic.ValueIdx Idealize.SL.Sem
open Cert.KernelIdeal Cert.KernelIdeal.Gen Cert.Scaled

variable {F : FTy → Type} [FloatOps F]
variable (m : (ℓ : Loc nD τ sig) → Buf (Elt F) ℓ)

/-- The zero offsets of the body's accesses, in the two spellings the library's lemmas ask for. -/
theorem off2_zero : (![0, 0] : Fin 2 → Nat) = fun _ => 0 := funext fun a => by fin_cases a <;> rfl
theorem off1_zero : (![0] : Fin 1 → Nat) = fun _ => 0 := funext fun a => by fin_cases a <;> rfl

/-- The flattened input and the factors as the region finds them, and the blocks point t is given. -/
abbrev flatIn (c : Dev nD) : Vec F S32768x1024 .f32 := V m c main_v0
abbrev factors (c : Dev nD) : Vec F S1024 .f32 := V m c main_arg1
abbrev inBlock (c : Dev nD) (t : Fin cfg0.N) : Vec F S2048x1024 .f32 := iblk m c 0 t
abbrev factorBlock (c : Dev nD) (t : Fin cfg0.N) : Vec F S1024 .f32 := iblk m c 1 t

/-- The printed index maps over the 16 points: input and output blocks are block t of the rows, at channel
    block 0; the factors' block is always block 0. -/
theorem index_facts : ∀ t : Fin cfg0.N, win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-- Point t's input block at (r, d) is the flattened input at row 2048 t + r, channel d: where the output's
    block puts (r, d). -/
theorem inBlock_apply (c : Dev nD) (t : Fin cfg0.N) (r : Fin 2048) (d : Fin 1024) :
    inBlock m c t (ix2 r d) = flatIn m c (((cfg0.win 2).blk t).view.emb (ix2 r d)) := by
  obtain ⟨e0, e1, -, e3, e4⟩ := index_facts t
  show V m c main_v0 (((cfg0.win 0).blk t).view.emb (ix2 r d)) = V m c main_v0 (((cfg0.win 2).blk t).view.emb (ix2 r d))
  refine congrArg (V m c main_v0) (funext fun a => Fin.ext ?_)
  match a with
  | ⟨0, _⟩ => show win0_0.index t (0 : Fin 2) * 2048 + 1 * r.val = win0_2.index t (0 : Fin 2) * 2048 + 1 * r.val; omega
  | ⟨1, _⟩ => show win0_0.index t (1 : Fin 2) * 1024 + 1 * d.val = win0_2.index t (1 : Fin 2) * 1024 + 1 * d.val; omega

/-- Point t's block of the factors at d is factor d. -/
theorem factorBlock_apply (c : Dev nD) (t : Fin cfg0.N) (d : Fin 1024) :
    factorBlock m c t (ix1 d) = factors m c (ix1 d) := by
  obtain ⟨-, -, e2, -, -⟩ := index_facts t
  show V m c main_arg1 (((cfg0.win 1).blk t).view.emb (ix1 d)) = V m c main_arg1 (ix1 d)
  refine congrArg (V m c main_arg1) (funext fun a => Fin.ext ?_)
  match a with
  | ⟨0, _⟩ => show win0_1.index t (0 : Fin 1) * 1024 + 1 * d.val = d.val; omega

/-- The channel of the array position under (r, d) of point t's output block is d. -/
theorem emb_chan (t : Fin cfg0.N) (r : Fin 2048) (d : Fin 1024) :
    ((((cfg0.win 2).blk t).view.emb (ix2 r d)) 1).val = d.val := by
  obtain ⟨-, -, -, -, e4⟩ := index_facts t
  show win0_2.index t (1 : Fin 2) * 1024 + 1 * d.val = d.val
  omega

/-- WHAT POINT t WRITES BACK is its block of the row scaling of the flattened input. -/
theorem flushed_eq (c : Dev nD) (t : Fin cfg0.N) :
    (dats m 0 c).flushed 2 t = ((cfg0.win 2).blk t).view.read (Elt F) (scaleRows (flatIn m c) (factors m c)) := by
  show (cfg0.win 2).cut (grid0.coords t) ((dats m 0 c).after 2 t) = _
  rw [after0_2]
  unfold out0_2
  rw [View.canon_unit_zero off2_zero]
  simp only [View.ld_unit_zero (S := S2048x1024) off2_zero, View.ld_unit_zero (S := S1024) off1_zero]
  refine funext fun (j : S2048x1024.Idx) => ?_
  obtain ⟨r, d, rfl⟩ : ∃ (r : Fin 2048) (d : Fin 1024), j = ix2 r d := ⟨j 0, j 1, eq_ix2 j⟩
  show k0_pay1 (inBlock m c t) (factorBlock m c t) (ix2 r d)
    = FloatOps.mulf (flatIn m c (((cfg0.win 2).blk t).view.emb (ix2 r d)))
        (factors m c (ix1 ⟨((((cfg0.win 2).blk t).view.emb (ix2 r d)) 1).val, ((((cfg0.win 2).blk t).view.emb (ix2 r d)) 1).isLt⟩))
  refine (stored_apply (inBlock m c t) (factorBlock m c t) r d).trans ?_
  rw [inBlock_apply m c t r d, factorBlock_apply m c t d]
  exact congrArg (fun k => FloatOps.mulf (flatIn m c (((cfg0.win 2).blk t).view.emb (ix2 r d))) (factors m c (ix1 k)))
    (Fin.ext (emb_chan t r d).symm)

/-- A position of the output array is in point t's block iff its row is among the block's 2048 rows and its
    channel among the 1024. -/
theorem mem_block (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- Every position of the output array is in the block of the point its row's block number names. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : (i 0).val / 2048 < cfg0.N := by show _ < grid0.N; rw [N_0]; omega
  refine ⟨⟨(i 0).val / 2048, hN⟩, flush0_2 _, ?_⟩
  obtain ⟨-, -, -, e3, e4⟩ := index_facts ⟨(i 0).val / 2048, hN⟩
  have e3' : win0_2.index ⟨(i 0).val / 2048, hN⟩ (0 : Fin 2) = (i 0).val / 2048 := e3
  rw [mem_block]
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    omega
  | ⟨1, _⟩ =>
    show win0_2.index ⟨(i 0).val / 2048, hN⟩ (1 : Fin 2) * 1024 ≤ (i 1).val
      ∧ (i 1).val < win0_2.index ⟨(i 0).val / 2048, hN⟩ (1 : Fin 2) * 1024 + 1024
    omega

/-- THE OUTPUT ARRAY after the region: the row scaling of the flattened input as the region found it. -/
theorem region_result (c : Dev nD) :
    (dats m 0 c).arrAt 2 cfg0.N = scaleRows (flatIn m c) (factors m c) :=
  (dats m 0 c).arrAt_eq_of_cover 2 (scaleRows (flatIn m c) (factors m c)) (fun t _ => flushed_eq m c t) covered

end Cert.KernelIdeal.Scaled

end
-- ==== Proof.KernelValue.lean ====
/-
  The whole kernel program.  Around the region the program has two reshapes: the cube is flattened to
  32768 rows before it, and the region's output is read back as a cube after it.  The region leaves the row
  scaling of the flattened input (the blocks-to-array step), so the program's result is: flatten, scale the rows,
  unflatten, which is the channel-wise scaling of the cube.  The run itself (termination, no fault, the
  arguments kept) is the generated frame run; here its post is read at the result.
-/
import proofs.«145180_j25125558681902_1_alg».proof.Proof.Gen.KernelIdeal.Frame
import proofs.«145180_j25125558681902_1_alg».proof.Proof.Blocks
import Idealize.ShloMosaic.Lib.StableHlo.Run

noncomputable section

namespace Cert.KernelIdeal.Scaled

open Idealize.ShloMosaic Idealize.ShloMosaic.TcCoe Idealize.ShloMosaic.ValueIdx Idealize.SL.Sem
open Idealize.ShloMosaic.StableHlo
open Cert.KernelIdeal Cert.KernelIdeal.Gen Cert.Scaled

variable {F : FTy → Type} [FloatOps F]
variable (m : (ℓ : Loc nD τ sig) → Buf (Elt F) ℓ) (ρ : Dev nD → PrngReg)

/-- The region finds, as its first operand, the argument cube flattened to rows. -/
theorem flatIn_eq (c : Dev nD) :
    flatIn m c = shapeCast S32768x1024 (m ((c : Thread nD τ).loc main_arg0)) shapeCasts_S4x8192x1024_S32768x1024 := by
  show StableHlo.after hostOps0 (fun b => m (c, b)) (Proc.devRef .tc main_v0) = _
  after_results
  rfl

/-- and, as its second, the factors as launched. -/
theorem factors_eq (c : Dev nD) : factors m c = m ((c : Thread nD τ).loc main_arg1) := V_main_arg1 m c

/-- THE PROGRAM'S RESULT: the reshape after the region reads the region's output array, the row scaling of the
    flattened cube, back as a cube: the channel-wise scaling of the argument cube by the argument factors. -/
theorem result_eq (c : Dev nD) :
    Pipeline.afterTail₀ cfgs (dats m) 0 (V0 m) [hostOps1] c main_v2
      = scaleCube (m ((c : Thread nD τ).loc main_arg0)) (m ((c : Thread nD τ).loc main_arg1)) := by
  unfold Pipeline.afterTail₀
  show StableHlo.after hostOps1 _ (Proc.devRef .tc main_v2) = _
  after_results
  show shapeCast S4x8192x1024
      (Pipeline.withArrays (cfgs 0).spec c (V0 m c) (fun w => (dats m 0 c).arrAt w (cfgs 0).N) (Proc.devRef .tc main_v1))
      shapeCasts_S32768x1024_S4x8192x1024 = _
  refine (congrArg (fun y => shapeCast S4x8192x1024 y shapeCasts_S32768x1024_S4x8192x1024)
    ((Pipeline.withArrays_arr _ launch0.win.arr_inj c _ _ 2).trans (region_result m c))).trans ?_
  rw [flatIn_eq, factors_eq]
  exact unflatten_scaleRows_flatten _ _ _ _

/-- THE RUN, READ: every weakly fair execution of the program terminates without a fault with its result at the
    channel-wise scaling of its arguments, and the arguments as launched. -/
theorem run : θ_run defs (onTc (τ := τ) (main (F := F))) ⟨m, fun _ => 0, ρ⟩ fun r => ∀ c : Dev nD,
      r.2.mem ((c : Thread nD τ).loc main_v2)
        = scaleCube (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Scaled

end
-- ==== Proof.Reference.lean ====
/-
  The reference program.  It repeats the factors along two new leading axes (first to [1, 1, 1024], then to
  the cube's shape) and multiplies the cube by the result, entry by entry.  Read at (b, s, d), the repeated
  factors are factor d, so the reference's result is the channel-wise scaling of the cube: the same function
  the kernel program ends at, with the same operand order in the product.
-/
import proofs.«145180_j25125558681902_1_alg».proof.Proof.Gen.ReferenceIdeal.Read
import proofs.«145180_j25125558681902_1_alg».proof.Proof.Spec

noncomputable section

namespace Cert.ReferenceIdeal.Scaled

open Idealize.ShloMosaic Idealize.ShloMosaic.ValueIdx
open Cert.ReferenceIdeal Cert.ReferenceIdeal.Read Cert.Scaled

variable {F : FTy → Type} [FloatOps F]

/-- The factor the two broadcasts put at a position of the cube is the one of its channel. -/
theorem channel_index (i : S4x8192x1024.Idx) : idx_main_v0 (idx_main_v1 i) = ix1 ⟨(i 2).val, (i 2).isLt⟩ :=
  funext fun a => by match a with | ⟨0, _⟩ => rfl

/-- The reference's result, as a function of its two arguments, is the channel-wise scaling of the cube. -/
theorem reference_eq (x : Vec F S4x8192x1024 .f32) (g : Vec F S1024 .f32) :
    val_main_v2 (F := F) x g = scaleCube x g := by
  funext i
  rw [val_main_v2_apply, val_main_v1_apply, val_main_v0_apply, channel_index]
  rfl

end Cert.ReferenceIdeal.Scaled

end
-- ==== Proof.lean ====
/-
  Per-channel scaling of a cube of 4 x 8192 x 1024 numbers by a vector of 1024 factors: a kernel that
  flattens the cube to 32768 rows, multiplies blocks of 2048 rows by the factors repeated down the rows, and
  reshapes back, against the plain product of the cube with the factors broadcast over the two leading axes.

  Both programs end at ONE function of their arguments, the entry at (b, s, d) times factor d, with the
  product's operands in the same order, so the two results are equal for every reading of floats and for all
  inputs; the finiteness of the inputs is not used.
    * Kernel side: the body at one position (Proof/Body.lean), the 16 blocks of 2048 rows tiling the
      flattened array (Proof/Blocks.lean), the reshapes before and after the region (Proof/KernelValue.lean).
    * Reference side: the two broadcasts read at a position (Proof/Reference.lean).
    * The function itself and the reshape bookkeeping (Proof/Spec.lean).
  The three frame claims are the programs' runs with the value dropped; the idealization rewrote nothing, so
  the preservation claim is trivially true.
-/
import proofs.«145180_j25125558681902_1_alg».proof.Defs
import proofs.«145180_j25125558681902_1_alg».proof.Proof.Gen.Kernel
import proofs.«145180_j25125558681902_1_alg».proof.Proof.Gen.Kernel.Skeleton
import proofs.«145180_j25125558681902_1_alg».proof.Proof.Gen.Kernel.Launch
import proofs.«145180_j25125558681902_1_alg».proof.Proof.Gen.Kernel.Points
import proofs.«145180_j25125558681902_1_alg».proof.Proof.Gen.Kernel.Frame
import proofs.«145180_j25125558681902_1_alg».proof.Proof.Gen.KernelIdeal
import proofs.«145180_j25125558681902_1_alg».proof.Proof.Gen.KernelIdeal.Skeleton
import proofs.«145180_j25125558681902_1_alg».proof.Proof.Gen.KernelIdeal.Launch
import proofs.«145180_j25125558681902_1_alg».proof.Proof.Gen.KernelIdeal.Points
import proofs.«145180_j25125558681902_1_alg».proof.Proof.Gen.KernelIdeal.Frame
import proofs.«145180_j25125558681902_1_alg».proof.Proof.Gen.ReferenceIdeal
import proofs.«145180_j25125558681902_1_alg».proof.Proof.Gen.ReferenceIdeal.Run
import proofs.«145180_j25125558681902_1_alg».proof.Proof.Gen.ReferenceIdeal.Read
import proofs.«145180_j25125558681902_1_alg».proof.Proof.Gen.Pre_finite_inputs
import proofs.«145180_j25125558681902_1_alg».proof.Proof.KernelValue
import proofs.«145180_j25125558681902_1_alg».proof.Proof.Reference
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten by the idealization. -/
theorem preserves : Cert.preserves_Kernel_KernelIdeal := trivial

/-- From memories that agree on the arguments both programs end with the channel-wise scaling of the cube by the
    factors: the kernel program by its run read at the result, the reference by its run and the two broadcasts
    read at a position. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq]
  exact Cert.ReferenceIdeal.Scaled.reference_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
